-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩

class Facts : Prop where
  bcast_S_S8x55296x64 : S_.BroadcastsInDim S8x55296x64 (![] : Fin 0 → Fin S8x55296x64.rank)
  reducesTo_S8x55296x64_S_d0_1_2 : S8x55296x64.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8x55296x64 .f32) (main_arg1 : IVec S221184 32) (main_arg2 : IVec S221184 32) (main_arg3 : FVec F S256x64 .f32) (main_arg4 : FVec F S256 .f32) (main_arg5 : FVec F S256x64 .f32) : IVec S_ 1 :=
  let main_v0 : FVec F S8x55296x64 .f32 := Host.absf main_arg0
  let main_cst : FVec F S_ .f32 := constant S_ .f32 0x7F800000#32
  let main_v1 : FVec F S8x55296x64 .f32 := broadcastInDim S8x55296x64 ![] bcast_S_S8x55296x64 main_cst
  let main_v2 : IVec S8x55296x64 1 := cmpf .olt main_v0 main_v1
  let main_c : IVec S_ 1 := constantI S_ 1 1#1
  let main_v3 : IVec S_ 1 := (fun x v => Host.reduce IntOp.andi x v reducesTo_S8x55296x64_S_d0_1_2 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩
abbrev S221184x1 : Shape := ⟨2, ![221184, 1]⟩
abbrev S8x221184x64 : Shape := ⟨3, ![8, 221184, 64]⟩
abbrev S55296 : Shape := ⟨1, ![55296]⟩
abbrev S1x55296x1 : Shape := ⟨3, ![1, 55296, 1]⟩
abbrev S442368x64 : Shape := ⟨2, ![442368, 64]⟩
abbrev S64x256 : Shape := ⟨2, ![64, 256]⟩
abbrev S442368x256 : Shape := ⟨2, ![442368, 256]⟩
abbrev S4096x64 : Shape := ⟨2, ![4096, 64]⟩
abbrev S4096x256 : Shape := ⟨2, ![4096, 256]⟩
abbrev S1x256 : Shape := ⟨2, ![1, 256]⟩
abbrev S8x55296x256 : Shape := ⟨3, ![8, 55296, 256]⟩

abbrev nBuf : Space → Nat
  | .hbm => 51
  | .vmem => 9
  | .smem => 0
  | _ => 0

abbrev bufTy : (tb : Table) → Fin (tcTables nBuf tb) → BufTy
  | .hbm, ⟨0, _⟩ => ⟨S8x55296x64, .f32⟩
  | .hbm, ⟨1, _⟩ => ⟨S221184, .i32⟩
  | .hbm, ⟨2, _⟩ => ⟨S221184, .i32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S_, .i32⟩
  | .hbm, ⟨7, _⟩ => ⟨S221184, .i32⟩
  | .hbm, ⟨8, _⟩ => ⟨S221184, .i1⟩
  | .hbm, ⟨9, _⟩ => ⟨S_, .i32⟩
  | .hbm, ⟨10, _⟩ => ⟨S221184, .i32⟩
  | .hbm, ⟨11, _⟩ => ⟨S221184, .i32⟩
  | .hbm, ⟨12, _⟩ => ⟨S221184, .i32⟩
  | .hbm, ⟨13, _⟩ => ⟨S221184x1, .i32⟩
  | .hbm, ⟨14, _⟩ => ⟨S8x221184x64, .f32⟩
  | .hbm, ⟨15, _⟩ => ⟨S_, .f32⟩
  | .hbm, ⟨16, _⟩ => ⟨S8x55296x64, .f32⟩
  | .hbm, ⟨17, _⟩ => ⟨S_, .i32⟩
  | .hbm, ⟨18, _⟩ => ⟨S221184, .i32⟩
  | .hbm, ⟨19, _⟩ => ⟨S221184, .i1⟩
  | .hbm, ⟨20, _⟩ => ⟨S_, .i32⟩
  | .hbm, ⟨21, _⟩ => ⟨S221184, .i32⟩
  | .hbm, ⟨22, _⟩ => ⟨S221184, .i32⟩
  | .hbm, ⟨23, _⟩ => ⟨S221184, .i32⟩
  | .hbm, ⟨24, _⟩ => ⟨S221184x1, .i32⟩
  | .hbm, ⟨25, _⟩ => ⟨S8x55296x64, .f32⟩
  | .hbm, ⟨26, _⟩ => ⟨S_, .f32⟩
  | .hbm, ⟨27, _⟩ => ⟨S55296, .f32⟩
  | .hbm, ⟨28, _⟩ => ⟨S_, .i32⟩
  | .hbm, ⟨29, _⟩ => ⟨S221184, .i32⟩
  | .hbm, ⟨30, _⟩ => ⟨S221184, .i1⟩
  | .hbm, ⟨31, _⟩ => ⟨S_, .i32⟩
  | .hbm, ⟨32, _⟩ => ⟨S221184, .i32⟩
  | .hbm, ⟨33, _⟩ => ⟨S221184, .i32⟩
  | .hbm, ⟨34, _⟩ => ⟨S221184, .i32⟩
  | .hbm, ⟨35, _⟩ => ⟨S221184x1, .i32⟩
  | .hbm, ⟨36, _⟩ => ⟨S_, .f32⟩
  | .hbm, ⟨37, _⟩ => ⟨S221184, .f32⟩
  | .hbm, ⟨38, _⟩ => ⟨S55296, .f32⟩
  | .hbm, ⟨39, _⟩ => ⟨S_, .f32⟩
  | .hbm, ⟨40, _⟩ => ⟨S55296, .f32⟩
  | .hbm, ⟨41, _⟩ => ⟨S55296, .f32⟩
  | .hbm, ⟨42, _⟩ => ⟨S1x55296x1, .f32⟩
  | .hbm, ⟨43, _⟩ => ⟨S8x55296x64, .f32⟩
  | .hbm, ⟨44, _⟩ => ⟨S8x55296x64, .f32⟩
  | .hbm, ⟨45, _⟩ => ⟨S442368x64, .f32⟩
  | .hbm, ⟨46, _⟩ => ⟨S442368x64, .f32⟩
  | .hbm, ⟨47, _⟩ => ⟨S64x256, .f32⟩
  | .hbm, ⟨48, _⟩ => ⟨S64x256, .f32⟩
  | .hbm, ⟨49, _⟩ => ⟨S442368x256, .f32⟩
  | .hbm, ⟨50, _⟩ => ⟨S8x55296x256, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S64x256, .f32⟩
  | .local _ .vmem, ⟨5, _⟩ => ⟨S256, .f32⟩
  | .local _ .vmem, ⟨6, _⟩ => ⟨S64x256, .f32⟩
  | .local _ .vmem, ⟨7, _⟩ => ⟨S4096x256, .f32⟩
  | .local _ .vmem, ⟨8, _⟩ => ⟨S4096x256, .f32⟩
  | _, _ => ⟨S8x55296x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![108], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S221184 : S_.BroadcastsInDim S221184 (![] : Fin 0 → Fin S221184.rank)
  bcast_S221184_S221184x1_0 : S221184.BroadcastsInDim S221184x1 (![0] : Fin 1 → Fin S221184x1.rank)
  bcast_S_S8x55296x64 : S_.BroadcastsInDim S8x55296x64 (![] : Fin 0 → Fin S8x55296x64.rank)
  bcast_S_S55296 : S_.BroadcastsInDim S55296 (![] : Fin 0 → Fin S55296.rank)
  bcast_S55296_S1x55296x1_1 : S55296.BroadcastsInDim S1x55296x1 (![1] : Fin 1 → Fin S1x55296x1.rank)
  bcast_S1x55296x1_S8x55296x64_0_1_2 : S1x55296x1.BroadcastsInDim S8x55296x64 (![0, 1, 2] : Fin 3 → Fin S8x55296x64.rank)
  shapeCasts_S8x55296x64_S442368x64 : S8x55296x64.ShapeCasts S442368x64
  transposes_S256x64_S64x256_1_0 : S256x64.Transposes [1, 0] S64x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S442368x256_S8x55296x256 : S442368x256.ShapeCasts S8x55296x256
  gather_S8x55296x64_S221184x1_S8x221184x64_02_1_n_n_1_1_8164_wf : GatherDims.WF S8x55296x64 S221184x1 S8x221184x64 [0, 2] [1] [] [1] [] 1 ![8, 1, 64]
  scatter_S8x55296x64_S221184x1_S8x221184x64_02_1_1_1_wf : ScatterDims.WF S8x55296x64 S221184x1 S8x221184x64 [0, 2] [1] [1] 1
  scatter_S55296_S221184x1_S221184_n_0_0_1_wf : ScatterDims.WF S55296 S221184x1 S221184 [] [0] [0] 1
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S442368x64.size a
  hwx0_0 : ∀ i : grid0.Coords, EltTy.bits .f32 = 32 ∨ (Rect.block (s := S442368x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S442368x64.size a
  hwx0_1 : ∀ i : grid0.Coords, EltTy.bits .f32 = 32 ∨ (Rect.block (s := S442368x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S442368x256.size a
  hwx0_5 : ∀ i : grid0.Coords, EltTy.bits .f32 = 32 ∨ (Rect.block (s := S442368x256) S4096x256.size (cc0_transform_5 i) (hinb0_5 i)).WholeWords (EltTy.packing .f32)

variable [Facts₀]

def gather_S8x55296x64_S221184x1_S8x221184x64_02_1_n_n_1_1_8164 : GatherDims S8x55296x64 S221184x1 S8x221184x64 where
  offsetDims := [0, 2]
  collapsedSliceDims := [1]
  operandBatchingDims := []
  startIndicesBatchingDims := []
  startIndexMap := [1]
  indexVectorDim := 1
  sliceSizes := ![8, 1, 64]
  wf := gather_S8x55296x64_S221184x1_S8x221184x64_02_1_n_n_1_1_8164_wf
def scatter_S8x55296x64_S221184x1_S8x221184x64_02_1_1_1 : ScatterDims S8x55296x64 S221184x1 S8x221184x64 where
  updateWindowDims := [0, 2]
  insertedWindowDims := [1]
  scatterDimsToOperandDims := [1]
  indexVectorDim := 1
  wf := scatter_S8x55296x64_S221184x1_S8x221184x64_02_1_1_1_wf
def scatter_S55296_S221184x1_S221184_n_0_0_1 : ScatterDims S55296 S221184x1 S221184 where
  updateWindowDims := []
  insertedWindowDims := [0]
  scatterDimsToOperandDims := [0]
  indexVectorDim := 1
  wf := scatter_S55296_S221184x1_S221184_n_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_v29) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x55296x64 : Shape := ⟨3, ![8, 55296, 64]⟩
abbrev S221184 : Shape := ⟨1, ![221184]⟩
abbrev S256x64 : Shape := ⟨2, ![256, 64]⟩
abbrev S256 : Shape := ⟨1, ![256]⟩
abbrev S_ : Shape := ⟨0, ![]⟩
abbrev S221184x1 : Shape := ⟨2, ![221184, 1]⟩
abbrev S8x221184x64 : Shape := ⟨3, ![8, 221184, 64]⟩
abbrev S55296 : Shape := ⟨1, ![55296]⟩
abbrev S1x55296x1 : Shape := ⟨3, ![1, 55296, 1]⟩
abbrev S8x55296x256 : Shape := ⟨3, ![8, 55296, 256]⟩
abbrev S1x1x256 : Shape := ⟨3, ![1, 1, 256]⟩

abbrev nBuf : Space → Nat
  | .hbm => 54
  | .vmem => 0
  | .smem => 0
  | _ => 0

abbrev bufTy : (tb : Table) → Fin (tcTables nBuf tb) → BufTy
  | .hbm, ⟨0, _⟩ => ⟨S8x55296x64, .f32⟩
  | .hbm, ⟨1, _⟩ => ⟨S221184, .i32⟩
  | .hbm, ⟨2, _⟩ => ⟨S221184, .i32⟩
  | .hbm, ⟨3, _⟩ => ⟨S256x64, .f32⟩
  | .hbm, ⟨4, _⟩ => ⟨S256, .f32⟩
  | .hbm, ⟨5, _⟩ => ⟨S256x64, .f32⟩
  | .hbm, ⟨6, _⟩ => ⟨S_, .i32⟩
  | .hbm, ⟨7, _⟩ => ⟨S221184, .i32⟩
  | .hbm, ⟨8, _⟩ => ⟨S221184, .i1⟩
  | .hbm, ⟨9, _⟩ => ⟨S_, .i32⟩
  | .hbm, ⟨10, _⟩ => ⟨S221184, .i32⟩
  | .hbm, ⟨11, _⟩ => ⟨S221184, .i32⟩
  | .hbm, ⟨12, _⟩ => ⟨S221184, .i32⟩
  | .hbm, ⟨13, _⟩ => ⟨S221184x1, .i32⟩
  | .hbm, ⟨14, _⟩ => ⟨S8x221184x64, .f32⟩
  | .hbm, ⟨15, _⟩ => ⟨S_, .f32⟩
  | .hbm, ⟨16, _⟩ => ⟨S8x55296x64, .f32⟩
  | .hbm, ⟨17, _⟩ => ⟨S_, .i32⟩
  | .hbm, ⟨18, _⟩ => ⟨S221184, .i32⟩
  | .hbm, ⟨19, _⟩ => ⟨S221184, .i1⟩
  | .hbm, ⟨20, _⟩ => ⟨S_, .i32⟩
  | .hbm, ⟨21, _⟩ => ⟨S221184, .i32⟩
  | .hbm, ⟨22, _⟩ => ⟨S221184, .i32⟩
  | .hbm, ⟨23, _⟩ => ⟨S221184, .i32⟩
  | .hbm, ⟨24, _⟩ => ⟨S221184x1, .i32⟩
  | .hbm, ⟨25, _⟩ => ⟨S8x55296x64, .f32⟩
  | .hbm, ⟨26, _⟩ => ⟨S_, .f32⟩
  | .hbm, ⟨27, _⟩ => ⟨S55296, .f32⟩
  | .hbm, ⟨28, _⟩ => ⟨S_, .i32⟩
  | .hbm, ⟨29, _⟩ => ⟨S221184, .i32⟩
  | .hbm, ⟨30, _⟩ => ⟨S221184, .i1⟩
  | .hbm, ⟨31, _⟩ => ⟨S_, .i32⟩
  | .hbm, ⟨32, _⟩ => ⟨S221184, .i32⟩
  | .hbm, ⟨33, _⟩ => ⟨S221184, .i32⟩
  | .hbm, ⟨34, _⟩ => ⟨S221184, .i32⟩
  | .hbm, ⟨35, _⟩ => ⟨S221184x1, .i32⟩
  | .hbm, ⟨36, _⟩ => ⟨S_, .f32⟩
  | .hbm, ⟨37, _⟩ => ⟨S221184, .f32⟩
  | .hbm, ⟨38, _⟩ => ⟨S55296, .f32⟩
  | .hbm, ⟨39, _⟩ => ⟨S_, .f32⟩
  | .hbm, ⟨40, _⟩ => ⟨S55296, .f32⟩
  | .hbm, ⟨41, _⟩ => ⟨S55296, .f32⟩
  | .hbm, ⟨42, _⟩ => ⟨S1x55296x1, .f32⟩
  | .hbm, ⟨43, _⟩ => ⟨S8x55296x64, .f32⟩
  | .hbm, ⟨44, _⟩ => ⟨S8x55296x64, .f32⟩
  | .hbm, ⟨45, _⟩ => ⟨S8x55296x256, .f32⟩
  | .hbm, ⟨46, _⟩ => ⟨S1x1x256, .f32⟩
  | .hbm, ⟨47, _⟩ => ⟨S8x55296x256, .f32⟩
  | .hbm, ⟨48, _⟩ => ⟨S8x55296x256, .f32⟩
  | .hbm, ⟨49, _⟩ => ⟨S8x55296x256, .f32⟩
  | .hbm, ⟨50, _⟩ => ⟨S8x55296x256, .f32⟩
  | .hbm, ⟨51, _⟩ => ⟨S_, .f32⟩
  | .hbm, ⟨52, _⟩ => ⟨S8x55296x256, .f32⟩
  | .hbm, ⟨53, _⟩ => ⟨S8x55296x256, .f32⟩
  | _, _ => ⟨S8x55296x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S221184 : S_.BroadcastsInDim S221184 (![] : Fin 0 → Fin S221184.rank)
  bcast_S221184_S221184x1_0 : S221184.BroadcastsInDim S221184x1 (![0] : Fin 1 → Fin S221184x1.rank)
  bcast_S_S8x55296x64 : S_.BroadcastsInDim S8x55296x64 (![] : Fin 0 → Fin S8x55296x64.rank)
  bcast_S_S55296 : S_.BroadcastsInDim S55296 (![] : Fin 0 → Fin S55296.rank)
  bcast_S55296_S1x55296x1_1 : S55296.BroadcastsInDim S1x55296x1 (![1] : Fin 1 → Fin S1x55296x1.rank)
  bcast_S1x55296x1_S8x55296x64_0_1_2 : S1x55296x1.BroadcastsInDim S8x55296x64 (![0, 1, 2] : Fin 3 → Fin S8x55296x64.rank)
  bcast_S256_S1x1x256_2 : S256.BroadcastsInDim S1x1x256 (![2] : Fin 1 → Fin S1x1x256.rank)
  bcast_S1x1x256_S8x55296x256_0_1_2 : S1x1x256.BroadcastsInDim S8x55296x256 (![0, 1, 2] : Fin 3 → Fin S8x55296x256.rank)
  bcast_S_S8x55296x256 : S_.BroadcastsInDim S8x55296x256 (![] : Fin 0 → Fin S8x55296x256.rank)
  gather_S8x55296x64_S221184x1_S8x221184x64_02_1_n_n_1_1_8164_wf : GatherDims.WF S8x55296x64 S221184x1 S8x221184x64 [0, 2] [1] [] [1] [] 1 ![8, 1, 64]
  scatter_S8x55296x64_S221184x1_S8x221184x64_02_1_1_1_wf : ScatterDims.WF S8x55296x64 S221184x1 S8x221184x64 [0, 2] [1] [1] 1
  scatter_S55296_S221184x1_S221184_n_0_0_1_wf : ScatterDims.WF S55296 S221184x1 S221184 [] [0] [0] 1
  dot_S8x55296x64_S256x64_S8x55296x256_2_1_01_0_n_n_wf : DotDims.WF S8x55296x64 S256x64 S8x55296x256 [2] [1] [0, 1] [0] [] []

variable [Facts₀]

def gather_S8x55296x64_S221184x1_S8x221184x64_02_1_n_n_1_1_8164 : GatherDims S8x55296x64 S221184x1 S8x221184x64 where
  offsetDims := [0, 2]
  collapsedSliceDims := [1]
  operandBatchingDims := []
  startIndicesBatchingDims := []
  startIndexMap := [1]
  indexVectorDim := 1
  sliceSizes := ![8, 1, 64]
  wf := gather_S8x55296x64_S221184x1_S8x221184x64_02_1_n_n_1_1_8164_wf
def scatter_S8x55296x64_S221184x1_S8x221184x64_02_1_1_1 : ScatterDims S8x55296x64 S221184x1 S8x221184x64 where
  updateWindowDims := [0, 2]
  insertedWindowDims := [1]
  scatterDimsToOperandDims := [1]
  indexVectorDim := 1
  wf := scatter_S8x55296x64_S221184x1_S8x221184x64_02_1_1_1_wf
def scatter_S55296_S221184x1_S221184_n_0_0_1 : ScatterDims S55296 S221184x1 S221184 where
  updateWindowDims := []
  insertedWindowDims := [0]
  scatterDimsToOperandDims := [0]
  indexVectorDim := 1
  wf := scatter_S55296_S221184x1_S221184_n_0_0_1_wf
def dot_S8x55296x64_S256x64_S8x55296x256_2_1_01_0_n_n : DotDims S8x55296x64 S256x64 S8x55296x256 where
  lhsContracting := [2]
  rhsContracting := [1]
  lhsNonContracting := [0, 1]
  rhsNonContracting := [0]
  lhsBatch := []
  rhsBatch := []
  wf := dot_S8x55296x64_S256x64_S8x55296x256_2_1_01_0_n_n_wf

class Facts : Prop extends Facts₀ where

variable [Facts]
-- ==== Proof.Spec.lean ====
/-
  The layer both programs compute, as one function of the arrays, index by index, on the extended reals.

  For a batch entry `b`, a node `n` and an output channel `h`:

      out (b, n, h) = max ( ( Σ_f A (b, n, f) · W_l (h, f) + β (h) ) + Σ_f X (b, n, f) · W_r (h, f) , 0 )

  where `A` is the mean of the neighbours' features, `X` the nodes' own features, `W_l`, `W_r` the two weight
  matrices ([256, 64], contracted along their second axis) and `β` the bias. The sums are grouped as both programs
  group them — the neighbour product with the bias first, the root product added last — so nothing beyond reading
  each side at an index is needed to compare them. The zero is kept as the f32 word both programs print.
-/
import Idealize.ShloMosaic.PureOps.Ideal
import Idealize.ShloMosaic.Lib.ValueIdx

noncomputable section

open scoped BigOperators

namespace Cert.Sage

open Idealize.ShloMosaic Idealize.ShloMosaic.ValueIdx

/-- Per batch entry and node, `c` channels of extended reals. -/
abbrev Feat (c : Nat) : Type := (⟨3, ![8, 55296, c]⟩ : Shape).Idx → EReal
/-- A weight matrix, output channel by input channel. -/
abbrev Wts : Type := (⟨2, ![256, 64]⟩ : Shape).Idx → EReal
/-- The bias, one entry per output channel. -/
abbrev Bias : Type := (⟨1, ![256]⟩ : Shape).Idx → EReal

/-- One entry of the layer from its coordinates. -/
def layerAt (A X : Feat 64) (Wl : Wts) (β : Bias) (Wr : Wts) (b : Fin 8) (n : Fin 55296) (h : Fin 256) : EReal :=
  max (((∑ f : Fin 64, A (ix3 b n f) * Wl (ix2 h f)) + β (ix1 h)) + ∑ f : Fin 64, X (ix3 b n f) * Wr (ix2 h f))
    (Ideal.ofBits .f32 0x00000000#32)

/-- The layer as an array over [8, 55296, 256]. -/
def layer (A X : Feat 64) (Wl : Wts) (β : Bias) (Wr : Wts) : Feat 256 :=
  fun i => layerAt A X Wl β Wr (i 0) (i 1) (i 2)

theorem layer_apply (A X : Feat 64) (Wl : Wts) (β : Bias) (Wr : Wts) (b : Fin 8) (n : Fin 55296) (h : Fin 256) :
    layer A X Wl β Wr (ix3 b n h) = layerAt A X Wl β Wr b n h := rfl

end Cert.Sage

end
-- ==== Proof.RefIsSpec.lean ====
/-
  The reference, read at an index, is the layer of `Spec`.

  Its last stages are two contractions of a [8, 55296, 64] array with a [256, 64] matrix along their last axes, the bias
  broadcast along batch and node, two sums and a maximum with zero. Read at (b, n, h) these are the two sums over the 64
  input channels, the bias at h, and the maximum — the layer applied to the reference's own mean-aggregated array
  (its stage %28) and to the node features.
-/
import proofs.«173171_j4063039062110_1_alg».proof.Proof.Gen.ReferenceIdeal.Read
import proofs.«173171_j4063039062110_1_alg».proof.Proof.Spec

noncomputable section

namespace Cert.Sage.Ref

open Idealize.ShloMosaic Idealize.ShloMosaic.ValueIdx
open Cert.ReferenceIdeal Cert.ReferenceIdeal.Read

/-- The left operand of either contraction is read at (b, n, f). -/
theorem lidx29 (i : S8x55296x256.Idx) (k : Fin 64) : lidx_main_v29 i k = ix3 (i 0) (i 1) k :=
  funext fun a => Fin.ext (by match a with | ⟨0, _⟩ => rfl | ⟨1, _⟩ => rfl | ⟨2, _⟩ => rfl)
theorem lidx33 (i : S8x55296x256.Idx) (k : Fin 64) : lidx_main_v33 i k = ix3 (i 0) (i 1) k :=
  funext fun a => Fin.ext (by match a with | ⟨0, _⟩ => rfl | ⟨1, _⟩ => rfl | ⟨2, _⟩ => rfl)
/-- The weight matrix is read at (h, f). -/
theorem ridx29 (i : S8x55296x256.Idx) (k : Fin 64) : ridx_main_v29 i k = ix2 (i 2) k :=
  funext fun a => Fin.ext (by match a with | ⟨0, _⟩ => rfl | ⟨1, _⟩ => rfl)
theorem ridx33 (i : S8x55296x256.Idx) (k : Fin 64) : ridx_main_v33 i k = ix2 (i 2) k :=
  funext fun a => Fin.ext (by match a with | ⟨0, _⟩ => rfl | ⟨1, _⟩ => rfl)
/-- The bias, broadcast twice, is read at h. -/
theorem bidx (i : S8x55296x256.Idx) : idx_main_v30 (idx_main_v31 i) = ix1 (i 2) :=
  funext fun a => Fin.ext (by match a with | ⟨0, _⟩ => rfl)

/-- The reference's result is the layer of its own aggregated array and the node features. -/
theorem result_eq (x0 : (⟨S8x55296x64, .f32⟩ : BufTy).Contents (Elt Ideal)) (x1 x2 : (⟨S221184, .i32⟩ : BufTy).Contents (Elt Ideal))
    (x3 : (⟨S256x64, .f32⟩ : BufTy).Contents (Elt Ideal)) (x4 : (⟨S256, .f32⟩ : BufTy).Contents (Elt Ideal))
    (x5 : (⟨S256x64, .f32⟩ : BufTy).Contents (Elt Ideal)) :
    val_main_v35 (F := Ideal) x0 x1 x2 x3 x4 x5 = Cert.Sage.layer (val_main_v28 (F := Ideal) x0 x1 x2) x0 x3 x4 x5 := by
  funext i
  rw [val_main_v35_apply, val_main_v34_apply, val_main_v32_apply, val_main_v29_apply, val_main_v31_apply, val_main_v30_apply,
    val_main_v33_apply, val_main_call0_v0_apply, val_main_call0_cst_apply]
  simp only [lidx29, lidx33, ridx29, ridx33, bidx, Ideal.addf_def, Ideal.maximumf_def, Ideal.ofBits_def]
  rfl

end Cert.Sage.Ref

end
-- ==== Proof.KernelArrays.lean ====
/-
  The arrays the kernel region is launched on, as functions of the program's arguments.

  Before the region the program computes, by the very operations the reference starts with (the index wrap, the gather
  of source rows, the scatter-add into destination rows, the degree count, the maximum with one and the division), the
  mean of each node's neighbours; it then flattens batch and node into one row axis for that array and for the node
  features, and transposes the two weight matrices. So the region finds: the reference's own aggregated array (its
  stage %28, of the same arguments) cast to [442368, 64]; the node features cast likewise; and each weight matrix with
  its axes exchanged. The bias is passed as it is.
-/
import proofs.«173171_j4063039062110_1_alg».proof.Proof.Gen.KernelIdeal.Frame
import proofs.«173171_j4063039062110_1_alg».proof.Proof.Gen.ReferenceIdeal.Read
import Idealize.ShloMosaic.Lib.StableHlo.Run

noncomputable section

namespace Cert.Sage.Arrays

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The node features, the two index lists, the weights and the bias: the program's arguments on core `c`. -/
abbrev feats (c : Dev nD) : (⟨S8x55296x64, .f32⟩ : BufTy).Contents (Elt Ideal) := m ((c.tc : Thread nD τ).loc main_arg0)
abbrev srcs (c : Dev nD) : (⟨S221184, .i32⟩ : BufTy).Contents (Elt Ideal) := m ((c.tc : Thread nD τ).loc main_arg1)
abbrev dsts (c : Dev nD) : (⟨S221184, .i32⟩ : BufTy).Contents (Elt Ideal) := m ((c.tc : Thread nD τ).loc main_arg2)
abbrev wl (c : Dev nD) : (⟨S256x64, .f32⟩ : BufTy).Contents (Elt Ideal) := m ((c.tc : Thread nD τ).loc main_arg3)
abbrev bias (c : Dev nD) : (⟨S256, .f32⟩ : BufTy).Contents (Elt Ideal) := m ((c.tc : Thread nD τ).loc main_arg4)
abbrev wr (c : Dev nD) : (⟨S256x64, .f32⟩ : BufTy).Contents (Elt Ideal) := m ((c.tc : Thread nD τ).loc main_arg5)

/-- The mean of the neighbours' features: the reference's stage %28 of this program's arguments. -/
abbrev agg (c : Dev nD) : (⟨S8x55296x64, .f32⟩ : BufTy).Contents (Elt Ideal) :=
  Cert.ReferenceIdeal.Read.val_main_v28 (F := Ideal) (feats m c) (srcs m c) (dsts m c)

set_option maxRecDepth 8192 in
set_option maxHeartbeats 2000000 in
/-- Window 0's array: the aggregated array with batch and node merged. -/
theorem V_v29 (c : Dev nD) : V m c main_v29 = shapeCast S442368x64 (agg m c) shapeCasts_S8x55296x64_S442368x64 := by
  show StableHlo.after hostOps0 (fun b => m (c, b)) (Proc.devRef .tc main_v29) = _
  after_results_simp
  rfl

/-- Window 1's array: the node features with batch and node merged. -/
theorem V_v30 (c : Dev nD) : V m c main_v30 = shapeCast S442368x64 (feats m c) shapeCasts_S8x55296x64_S442368x64 := by
  show StableHlo.after hostOps0 (fun b => m (c, b)) (Proc.devRef .tc main_v30) = _
  after_results
  rfl

/-- Window 2's array: the neighbour weights transposed. -/
theorem V_v31 (c : Dev nD) : V m c main_v31 = transpose S64x256 [1, 0] (wl m c) transposes_S256x64_S64x256_1_0 := by
  show StableHlo.after hostOps0 (fun b => m (c, b)) (Proc.devRef .tc main_v31) = _
  after_results

/-- Window 4's array: the root weights transposed. -/
theorem V_v32 (c : Dev nD) : V m c main_v32 = transpose S64x256 [1, 0] (wr m c) transposes_S256x64_S64x256_1_0 := by
  show StableHlo.after hostOps0 (fun b => m (c, b)) (Proc.devRef .tc main_v32) = _
  after_results

end Cert.Sage.Arrays

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.KernelBody.lean ====
/-
  What the kernel body stores, read at an entry of its [4096, 256] block.

  The body loads a block `a` of 4096 rows of the aggregated array and the same rows `x` of the node features (each
  [4096, 64]), the two transposed weight matrices `wl`, `wr` ([64, 256]) and the bias `β` ([256]); it multiplies
  `a` by `wl` on the matrix unit into a zero accumulator, adds the bias along the rows, adds the product of `x` by
  `wr`, and takes the maximum with zero. The changes of format before the products are the identity on the extended
  reals. So the entry (p, q) of what is stored is

      max ( ( Σ_f a (p, f) · wl (f, q) + β (q) ) + Σ_f x (p, f) · wr (f, q) , 0 ).
-/
import proofs.«173171_j4063039062110_1_alg».proof.Proof.Gen.KernelIdeal.Skeleton
import proofs.«173171_j4063039062110_1_alg».proof.Proof.LibSageSpec
import proofs.«173171_j4063039062110_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Sage.Body

open Idealize.ShloMosaic Idealize.ShloMosaic.ValueIdx Idealize.ShloMosaic.SageSpec
open Cert.KernelIdeal Cert.KernelIdeal.Gen

/-- The body's matrix product is a plain rows-by-columns one: [4096, 64] by [64, 256], contracting the 64. -/
theorem plain : PlainDot dot_S4096x64_S64x256_S4096x256_1_0_0_1_n_n where
  rank := rfl
  size := fun _ => rfl
  l0 := fun i q => by
    unfold DotDims.lhsIdx
    rw [dif_neg (show ¬(0 : Fin S4096x64.rank) ∈ dot_S4096x64_S64x256_S4096x256_1_0_0_1_n_n.lhsBatch by decide),
      dif_pos (show (0 : Fin S4096x64.rank) ∈ dot_S4096x64_S64x256_S4096x256_1_0_0_1_n_n.lhsNonContracting by decide)]
    rfl
  l1 := fun i q _ => dot_S4096x64_S64x256_S4096x256_1_0_0_1_n_n.lhsIdx_val_of_single rfl i q
  r0 := fun i q _ => dot_S4096x64_S64x256_S4096x256_1_0_0_1_n_n.rhsIdx_val_of_single rfl i q
  r1 := fun i q => by
    unfold DotDims.rhsIdx
    rw [dif_neg (show ¬(1 : Fin S64x256.rank) ∈ dot_S4096x64_S64x256_S4096x256_1_0_0_1_n_n.rhsBatch by decide),
      dif_pos (show (1 : Fin S64x256.rank) ∈ dot_S4096x64_S64x256_S4096x256_1_0_0_1_n_n.rhsNonContracting by decide)]
    rfl

/-- The stored value at (p, q). -/
theorem stored_at (a x : Vec Ideal S4096x64 .f32) (wl wr : Vec Ideal S64x256 .f32) (β : Vec Ideal S256 .f32)
    (p : Fin 4096) (q : Fin 256) :
    k0_pay1 (F := Ideal) a x wl wr β (ix2 p q)
      = max ((rowDot a wl p q + β (ix1 q)) + rowDot x wr p q) (Ideal.ofBits .f32 0x00000000#32) := by
  unfold k0_pay1
  simp only [shapeCast_self]
  show max ((FloatOps.matmul (F := Ideal) dot_S4096x64_S64x256_S4096x256_1_0_0_1_n_n none _ _ (constant S4096x256 .f32 0x00000000#32) (ix2 p q)
      + broadcastTo S4096x256 (shapeCast S1x256 β shapeCasts_S256_S1x256) broadcasts_S1x256_S4096x256 (ix2 p q))
      + FloatOps.matmul (F := Ideal) dot_S4096x64_S64x256_S4096x256_1_0_0_1_n_n none _ _ (constant S4096x256 .f32 0x00000000#32) (ix2 p q)) _ = _
  rw [matmul_zero_at plain, matmul_zero_at plain, broadcastTo_1b_ab_apply, shapeCast_a_1a_apply]
  rfl

/-- When row `p` of the two loaded blocks is node `n` of batch entry `b`, and the loaded weights are the transposes of
    `Wl`, `Wr`, the stored entry (p, q) is the layer's entry (b, n, q): the same two sums over the input channels, the
    same bias, grouped the same way. -/
theorem stored_is_layer (a x : Vec Ideal S4096x64 .f32) (wlT wrT : Vec Ideal S64x256 .f32) (β : Vec Ideal S256 .f32)
    (A X : Cert.Sage.Feat 64) (Wl : Cert.Sage.Wts) (B : Cert.Sage.Bias) (Wr : Cert.Sage.Wts)
    (p : Fin 4096) (q : Fin 256) (b : Fin 8) (n : Fin 55296)
    (ha : ∀ f : Fin 64, a (ix2 p f) = A (ix3 b n f)) (hx : ∀ f : Fin 64, x (ix2 p f) = X (ix3 b n f))
    (hwl : ∀ f : Fin 64, wlT (ix2 f q) = Wl (ix2 q f)) (hwr : ∀ f : Fin 64, wrT (ix2 f q) = Wr (ix2 q f))
    (hβ : β (ix1 q) = B (ix1 q)) :
    k0_pay1 (F := Ideal) a x wlT wrT β (ix2 p q) = Cert.Sage.layerAt A X Wl B Wr b n q := by
  rw [stored_at]
  unfold Cert.Sage.layerAt rowDot
  simp only [ha, hx, hwl, hwr, hβ]

end Cert.Sage.Body

end
-- ==== Proof.LibMergeRows.lean ====
/-
  The two leading axes of a rank-3 array merged into one, and split again, read at an index; generic in the sizes.

  An `[a, b, c]` array and the `[n, c]` matrix with `n = a · b` rows hold the same entries in row-major order: the
  entry `(i, j, k)` of the one and the entry `(r, k)` of the other, with `r = i · b + j`, both sit at position
  `(i · b + j) · c + k`. So a cast either way reads the operand at the matching index.
-/
import Idealize.ShloMosaic.Lib.Pipeline.Value
import Idealize.ShloMosaic.Lib.ValueIdx

noncomputable section

namespace Cert.LibMergeRows

open Idealize.ShloMosaic Idealize.ShloMosaic.ValueIdx

variable {α : Type}

/-- An `[a, b, c]` array cast to `[n, c]` reads, at `(r, k)` with `r = i · b + j`, the operand at `(i, j, k)`. -/
theorem merge_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix cast to `[a, b, c]` reads, at `(i, j, k)`, the operand at `(r, k)` with `r = i · b + j`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibMergeRows

end
-- ==== Proof.KernelBlocks.lean ====
/-
  From the blocks the grid points write back to the whole [442368, 256] result array.

  The grid has 108 points; point `t` works on rows `4096 t … 4096 t + 4095` of the flattened arrays (every column) and on
  the whole of the two weight matrices and of the bias. Row `r = 4096 t + p` of the flattened arrays is node
  `r mod 55296` of batch entry `r / 55296`. So the entry (p, q) that point `t` stores is the layer's entry
  (r / 55296, r mod 55296, q), and since the 108 row blocks tile the array, the array ends holding, at (r, q), that
  entry of the layer.
-/
import proofs.«173171_j4063039062110_1_alg».proof.Proof.Gen.KernelIdeal.Frame
import proofs.«173171_j4063039062110_1_alg».proof.Proof.KernelArrays
import proofs.«173171_j4063039062110_1_alg».proof.Proof.KernelBody
import proofs.«173171_j4063039062110_1_alg».proof.Proof.Spec
import proofs.«173171_j4063039062110_1_alg».proof.Proof.LibMergeRows
import Idealize.ShloMosaic.Lib.Pipeline.Value
import Idealize.ShloMosaic.Lib.ValueLayout
import Idealize.ShloMosaic.Lib.Tactic

noncomputable section

namespace Cert.Sage.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Sage.Arrays

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The block index of each window at each point, decided over the grid: the two row-blocked inputs and the output
    take row block `t`; the weights and the bias are taken whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 108 :=
  lt_of_lt_of_eq t.isLt (show cfg0.N = 108 from N_0)

/-! ## Each input block, entry by entry -/

/-- Row `p` of window 0's block at point `t` is row `4096 t + p` of its array. -/
theorem rows0 (c : Dev nD) (t : Fin cfg0.N) (p : Fin 4096) (f : Fin 64) (r : Fin 442368) (hr : r.val = t.val * 4096 + p.val) :
    (iblk m c 0 t : Vec Ideal S4096x64 .f32) (ix2 p f) = (V m c main_v29 : S442368x64.Idx → Elt Ideal .f32) (ix2 r f) := by
  obtain ⟨e0, e1, -⟩ := idx_facts t
  unfold iblk
  rw [View.read_apply]
  show V m c main_v29 _ = V m c main_v29 _
  congr 1
  funext a
  apply Fin.ext
  match a with
  | ⟨0, _⟩ => show win0_0.index t 0 * 4096 + 1 * p.val = r.val; rw [e0, hr]; omega
  | ⟨1, _⟩ => show win0_0.index t 1 * 64 + 1 * f.val = f.val; rw [e1]; omega

/-- Row `p` of window 1's block at point `t` is row `4096 t + p` of its array. -/
theorem rows1 (c : Dev nD) (t : Fin cfg0.N) (p : Fin 4096) (f : Fin 64) (r : Fin 442368) (hr : r.val = t.val * 4096 + p.val) :
    (iblk m c 1 t : Vec Ideal S4096x64 .f32) (ix2 p f) = (V m c main_v30 : S442368x64.Idx → Elt Ideal .f32) (ix2 r f) := by
  obtain ⟨-, -, e0, e1, -⟩ := idx_facts t
  unfold iblk
  rw [View.read_apply]
  show V m c main_v30 _ = V m c main_v30 _
  congr 1
  funext a
  apply Fin.ext
  match a with
  | ⟨0, _⟩ => show win0_1.index t 0 * 4096 + 1 * p.val = r.val; rw [e0, hr]; omega
  | ⟨1, _⟩ => show win0_1.index t 1 * 64 + 1 * f.val = f.val; rw [e1]; omega

/-- Window 2's block is its whole array at every point. -/
theorem whole2 (c : Dev nD) (t : Fin cfg0.N) (f : Fin 64) (q : Fin 256) :
    (iblk m c 2 t : Vec Ideal S64x256 .f32) (ix2 f q) = (V m c main_v31 : S64x256.Idx → Elt Ideal .f32) (ix2 f q) := by
  obtain ⟨-, -, -, -, e0, e1, -⟩ := idx_facts t
  unfold iblk
  rw [View.read_apply]
  show V m c main_v31 _ = V m c main_v31 _
  congr 1
  funext a
  apply Fin.ext
  match a with
  | ⟨0, _⟩ => show win0_2.index t 0 * 64 + 1 * f.val = f.val; rw [e0]; omega
  | ⟨1, _⟩ => show win0_2.index t 1 * 256 + 1 * q.val = q.val; rw [e1]; omega

/-- Window 3's block is the whole bias at every point. -/
theorem whole3 (c : Dev nD) (t : Fin cfg0.N) (q : Fin 256) :
    (iblk m c 3 t : Vec Ideal S256 .f32) (ix1 q) = (V m c main_arg4 : S256.Idx → Elt Ideal .f32) (ix1 q) := by
  obtain ⟨-, -, -, -, -, -, e0, -⟩ := idx_facts t
  unfold iblk
  rw [View.read_apply]
  show V m c main_arg4 _ = V m c main_arg4 _
  congr 1
  funext a
  apply Fin.ext
  match a with
  | ⟨0, _⟩ => show win0_3.index t 0 * 256 + 1 * q.val = q.val; rw [e0]; omega

/-- Window 4's block is its whole array at every point. -/
theorem whole4 (c : Dev nD) (t : Fin cfg0.N) (f : Fin 64) (q : Fin 256) :
    (iblk m c 4 t : Vec Ideal S64x256 .f32) (ix2 f q) = (V m c main_v32 : S64x256.Idx → Elt Ideal .f32) (ix2 f q) := by
  obtain ⟨-, -, -, -, -, -, -, e0, e1, -⟩ := idx_facts t
  unfold iblk
  rw [View.read_apply]
  show V m c main_v32 _ = V m c main_v32 _
  congr 1
  funext a
  apply Fin.ext
  match a with
  | ⟨0, _⟩ => show win0_4.index t 0 * 64 + 1 * f.val = f.val; rw [e0]; omega
  | ⟨1, _⟩ => show win0_4.index t 1 * 256 + 1 * q.val = q.val; rw [e1]; omega

/-! ## The same entries as entries of the program's arguments -/

/-- Row `p` of the aggregated block at point `t` is node `n` of batch entry `b` when `4096 t + p = 55296 b + n`. -/
theorem agg_entry (c : Dev nD) (t : Fin cfg0.N) (p : Fin 4096) (f : Fin 64) (b : Fin 8) (n : Fin 55296)
    (h : t.val * 4096 + p.val = b.val * 55296 + n.val) :
    (iblk m c 0 t : Vec Ideal S4096x64 .f32) (ix2 p f) = agg m c (ix3 b n f) := by
  have hlt : t.val * 4096 + p.val < 442368 := by have := b.isLt; have := n.isLt; omega
  rw [rows0 m c t p f ⟨t.val * 4096 + p.val, hlt⟩ rfl, V_v29]
  exact Cert.LibMergeRows.merge_apply _ _ _ f b n h

/-- The same for the node features. -/
theorem feats_entry (c : Dev nD) (t : Fin cfg0.N) (p : Fin 4096) (f : Fin 64) (b : Fin 8) (n : Fin 55296)
    (h : t.val * 4096 + p.val = b.val * 55296 + n.val) :
    (iblk m c 1 t : Vec Ideal S4096x64 .f32) (ix2 p f) = feats m c (ix3 b n f) := by
  have hlt : t.val * 4096 + p.val < 442368 := by have := b.isLt; have := n.isLt; omega
  rw [rows1 m c t p f ⟨t.val * 4096 + p.val, hlt⟩ rfl, V_v30]
  exact Cert.LibMergeRows.merge_apply _ _ _ f b n h

/-- The loaded neighbour weights at (f, q) are the weight matrix at (q, f). -/
theorem wl_entry (c : Dev nD) (t : Fin cfg0.N) (f : Fin 64) (q : Fin 256) :
    (iblk m c 2 t : Vec Ideal S64x256 .f32) (ix2 f q) = wl m c (ix2 q f) := by
  rw [whole2, V_v31]
  exact transpose_ix2_apply _ _ f q

/-- The loaded root weights at (f, q) are the weight matrix at (q, f). -/
theorem wr_entry (c : Dev nD) (t : Fin cfg0.N) (f : Fin 64) (q : Fin 256) :
    (iblk m c 4 t : Vec Ideal S64x256 .f32) (ix2 f q) = wr m c (ix2 q f) := by
  rw [whole4, V_v32]
  exact transpose_ix2_apply _ _ f q

/-- The loaded bias is the bias. -/
theorem bias_entry (c : Dev nD) (t : Fin cfg0.N) (q : Fin 256) :
    (iblk m c 3 t : Vec Ideal S256 .f32) (ix1 q) = bias m c (ix1 q) := by
  rw [whole3, V_main_arg4]

/-! ## The result array -/

/-- The flattened result: row `r` is node `r mod 55296` of batch entry `r / 55296`. -/
def flat (c : Dev nD) : S442368x256.Idx → Elt Ideal .f32 := fun j =>
  Cert.Sage.layerAt (agg m c) (feats m c) (wl m c) (bias m c) (wr m c)
    ⟨(j 0).val / 55296, by have := idx2_lt0 j; omega⟩ ⟨(j 0).val % 55296, Nat.mod_lt _ (by decide)⟩ (j 1)

/-- What point `t` stores at (p, q) is the flattened result at (4096 t + p, q). -/
theorem stored_entry (c : Dev nD) (t : Fin cfg0.N) (p : Fin 4096) (q : Fin 256) (r : Fin 442368) (hr : r.val = t.val * 4096 + p.val) :
    k0_pay1 (F := Ideal) (iblk m c 0 t) (iblk m c 1 t) (iblk m c 2 t) (iblk m c 4 t) (iblk m c 3 t) (ix2 p q) = flat m c (ix2 r q) := by
  have hb : r.val / 55296 < 8 := by have := r.isLt; omega
  have hn : r.val % 55296 < 55296 := Nat.mod_lt _ (by decide)
  have h : t.val * 4096 + p.val = (⟨r.val / 55296, hb⟩ : Fin 8).val * 55296 + (⟨r.val % 55296, hn⟩ : Fin 55296).val := by
    show t.val * 4096 + p.val = r.val / 55296 * 55296 + r.val % 55296
    omega
  exact Cert.Sage.Body.stored_is_layer (iblk m c 0 t) (iblk m c 1 t) (iblk m c 2 t) (iblk m c 4 t) (iblk m c 3 t)
    (agg m c) (feats m c) (wl m c) (bias m c) (wr m c) p q ⟨r.val / 55296, hb⟩ ⟨r.val % 55296, hn⟩
    (fun f => agg_entry m c t p f _ _ h) (fun f => feats_entry m c t p f _ _ h)
    (fun f => wl_entry m c t f q) (fun f => wr_entry m c t f q) (bias_entry m c t q)

/-- What point `t` writes back is block `t` of the flattened result. -/
theorem flushed5_eq (c : Dev nD) (t : Fin cfg0.N) :
    (dats m 0 c).flushed 5 t = ((cfg0.win 5).blk t).view.read (Elt Ideal) (flat m c) := by
  obtain ⟨-, -, -, -, -, -, -, -, -, e0, e1⟩ := idx_facts t
  show (cfg0.win 5).cut (grid0.coords t) ((dats m 0 c).after 5 t) = _
  rw [after0_5]
  unfold out0_5
  rw [View.canon_unit_zero hz2]
  simp only [View.ld_unit_zero (S := S4096x64) hz2, View.ld_unit_zero (S := S64x256) hz2, View.ld_unit_zero (S := S256) hz1]
  funext y
  have hy0 : (y 0).val < 4096 := (y 0).isLt
  have hy1 : (y 1).val < 256 := (y 1).isLt
  have ht := t_lt t
  show k0_pay1 (F := Ideal) (iblk m c 0 t) (iblk m c 1 t) (iblk m c 2 t) (iblk m c 4 t) (iblk m c 3 t) y
    = flat m c (((cfg0.win 5).blk t).view.emb y)
  have hy : y = ix2 (⟨(y 0).val, hy0⟩ : Fin 4096) (⟨(y 1).val, hy1⟩ : Fin 256) := by
    funext a; match a with | ⟨0, _⟩ => rfl | ⟨1, _⟩ => rfl
  have he : ((cfg0.win 5).blk t).view.emb y = ix2 (⟨t.val * 4096 + (y 0).val, by omega⟩ : Fin 442368) (⟨(y 1).val, hy1⟩ : Fin 256) := by
    funext a
    apply Fin.ext
    match a with
    | ⟨0, _⟩ => show win0_5.index t 0 * 4096 + 1 * (y 0).val = t.val * 4096 + (y 0).val; rw [e0]; omega
    | ⟨1, _⟩ => show win0_5.index t 1 * 256 + 1 * (y 1).val = (y 1).val; rw [e1]; omega
  rw [he]
  exact (congrArg _ hy).trans (stored_entry m c t ⟨(y 0).val, hy0⟩ ⟨(y 1).val, hy1⟩ ⟨t.val * 4096 + (y 0).val, by omega⟩ rfl)

/-- An index of the result array is in point `t`'s block iff each coordinate is in the block's range on its axis. -/
theorem mem_blk5 (t : Fin cfg0.N) (i : S442368x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v33).slice (win0_5.rect t)).set ↔ _
  rw [View.set_slice_whole, Rect.mem_set_unit]
  exact Iff.rfl

/-- The 108 row blocks tile the result array: row `r` is in the block of point `r / 4096`. -/
theorem cover5 (i : S442368x256.Idx) :
    ∃ t : Fin cfg0.N, (cfg0.win 5).flush t = true ∧ i ∈ ((cfg0.win 5).blk t).view.set := by
  have hi0 : (i 0).val < 442368 := idx2_lt0 i
  have hi1 : (i 1).val < 256 := idx2_lt1 i
  have hN : cfg0.N = 108 := N_0
  have htl : (i 0).val / 4096 < cfg0.N := by rw [hN]; omega
  obtain ⟨-, -, -, -, -, -, -, -, -, e0, e1⟩ := idx_facts ⟨(i 0).val / 4096, htl⟩
  refine ⟨⟨(i 0).val / 4096, htl⟩, flush0_5 _, ?_⟩
  rw [mem_blk5]
  intro a
  match a with
  | ⟨0, _⟩ =>
    show win0_5.index ⟨(i 0).val / 4096, htl⟩ 0 * 4096 ≤ (i 0).val ∧ (i 0).val < win0_5.index ⟨(i 0).val / 4096, htl⟩ 0 * 4096 + 4096
    rw [e0]
    show (i 0).val / 4096 * 4096 ≤ (i 0).val ∧ (i 0).val < (i 0).val / 4096 * 4096 + 4096
    omega
  | ⟨1, _⟩ =>
    show win0_5.index ⟨(i 0).val / 4096, htl⟩ 1 * 256 ≤ (i 1).val ∧ (i 1).val < win0_5.index ⟨(i 0).val / 4096, htl⟩ 1 * 256 + 256
    rw [e1]
    omega

/-- After the run the result array holds the flattened result. -/
theorem final5 (c : Dev nD) : (dats m 0 c).arrAt 5 cfg0.N = flat m c :=
  (dats m 0 c).arrAt_eq_of_cover 5 (flat m c) (fun t _ => flushed5_eq m c t) (cover5)

end Cert.Sage.Blocks

end
-- ==== Proof.KernelRun.lean ====
/-
  The kernel program's run, read: what it returns and that its arguments are kept.

  After the region the program only splits the row axis of the [442368, 256] result back into batch and node. Row
  `55296 b + n` of the flattened result is the layer's entry for node `n` of batch entry `b`, so the returned
  [8, 55296, 256] array is the layer of the aggregated array, the node features, the two weight matrices and the bias.
-/
import proofs.«173171_j4063039062110_1_alg».proof.Proof.Gen.KernelIdeal.Frame
import proofs.«173171_j4063039062110_1_alg».proof.Proof.KernelBlocks
import proofs.«173171_j4063039062110_1_alg».proof.Proof.LibMergeRows
import Idealize.ShloMosaic.Lib.StableHlo.Run

noncomputable section

namespace Cert.Sage.Run

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Sage.Arrays Cert.Sage.Blocks

variable (m : (ℓ : Loc nD τ sig) → Buf (Elt Ideal) ℓ) (ρ : Dev nD → PrngReg)

/-- What the program returns on core `c`: the layer of its arguments. -/
abbrev result (c : Dev nD) : (⟨S8x55296x256, .f32⟩ : BufTy).Contents (Elt Ideal) :=
  Cert.Sage.layer (agg m c) (feats m c) (wl m c) (bias m c) (wr m c)

/-- An entry of the layer depends on its coordinates' values only. -/
theorem layerAt_congr (A X : Cert.Sage.Feat 64) (Wl : Cert.Sage.Wts) (β : Cert.Sage.Bias) (Wr : Cert.Sage.Wts)
    {b b' : Fin 8} {n n' : Fin 55296} (h : Fin 256) (hb : b'.val = b.val) (hn : n'.val = n.val) :
    Cert.Sage.layerAt A X Wl β Wr b' n' h = Cert.Sage.layerAt A X Wl β Wr b n h := by
  obtain rfl : b' = b := Fin.ext hb
  obtain rfl : n' = n := Fin.ext hn
  rfl

/-- The flattened result with its row axis split into batch and node is the layer. -/
theorem unflat (c : Dev nD) :
    shapeCast S8x55296x256 (flat m c) shapeCasts_S442368x256_S8x55296x256 = result m c := by
  funext i
  obtain ⟨b, n, h, rfl⟩ : ∃ (b : Fin 8) (n : Fin 55296) (h : Fin 256), i = ix3 b n h := ⟨i 0, i 1, i 2, eq_ix3 i⟩
  have hb := b.isLt
  have hn := n.isLt
  have hr : b.val * 55296 + n.val < 442368 := by omega
  rw [Cert.LibMergeRows.split_apply (flat m c) shapeCasts_S442368x256_S8x55296x256 b n h ⟨b.val * 55296 + n.val, hr⟩ rfl]
  refine layerAt_congr _ _ _ _ _ h ?_ ?_
  · show (b.val * 55296 + n.val) / 55296 = b.val
    omega
  · show (b.val * 55296 + n.val) % 55296 = n.val
    omega

/-- The host line after the region, applied to what the region leaves, returns the layer. -/
theorem tail (c : Dev nD) :
    Pipeline.afterTail₀ cfgs (dats m) 0 (V0 m) [hostOps1] c main_v34 = result m c := by
  unfold Pipeline.afterTail₀
  show StableHlo.after hostOps1 _ (Proc.devRef .tc main_v34) = _
  after_results
  refine Eq.trans ?_ (unflat m c)
  exact congrArg (fun v => shapeCast S8x55296x256 v shapeCasts_S442368x256_S8x55296x256)
    ((Pipeline.withArrays_arr spec0 launch0.win.arr_inj c _ _ 5).trans (final5 m c))

/-- Every weakly fair execution of the program terminates with the layer in its result buffer and its six arguments as
    launched. -/
theorem run : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v34 (Pipeline.mem_restRefs_of main_v34 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.Sage.Run

end
-- ==== Proof.lean ====
/-
  A graph layer with mean aggregation: for every batch entry b, node n and output channel h,

      out (b, n, h) = max ( ( Σ_f A (b, n, f) · W_l (h, f) + β (h) ) + Σ_f X (b, n, f) · W_r (h, f) , 0 ),

  where A (b, n, ·) is the sum of the features of the sources of the edges into n divided by max (deg n, 1).

  Both programs compute A by the same host operations on the same arguments (the wrap of negative indices, the gather
  of source rows, the scatter-add into destination rows, the degree count, the division). The reference then contracts
  A and X with the two [256, 64] weight matrices along their last axes, adds the bias to the first product, adds the
  second, and clamps at zero. The kernel program flattens batch and node into 442368 rows, transposes the weights, and
  runs a kernel over 108 blocks of 4096 rows: each block is multiplied by the transposed weights on the matrix unit into
  a zero accumulator (the changes of format before the products are the identity on the extended reals), the bias and
  the second product are added in the same order, and the block is clamped at zero; the result is split back into
  batch and node. Entry by entry both are the same two sums over the 64 input channels, grouped the same way, so no
  law beyond reading each side at an index is used and the inputs' finiteness is never needed.

  The three frames are the generated ones (the reference's is its run with the result dropped); the idealization
  rewrote nothing, so `preserves` is trivial; `algebraic` pairs the kernel program's run (Proof/KernelRun.lean) with
  the reference's run read at an index (Proof/RefIsSpec.lean).
-/
import proofs.«173171_j4063039062110_1_alg».proof.Defs
import proofs.«173171_j4063039062110_1_alg».proof.Proof.Gen.Kernel
import proofs.«173171_j4063039062110_1_alg».proof.Proof.Gen.Kernel.Skeleton
import proofs.«173171_j4063039062110_1_alg».proof.Proof.Gen.Kernel.Launch
import proofs.«173171_j4063039062110_1_alg».proof.Proof.Gen.Kernel.Points
import proofs.«173171_j4063039062110_1_alg».proof.Proof.Gen.Kernel.Frame
import proofs.«173171_j4063039062110_1_alg».proof.Proof.Gen.KernelIdeal
import proofs.«173171_j4063039062110_1_alg».proof.Proof.Gen.KernelIdeal.Skeleton
import proofs.«173171_j4063039062110_1_alg».proof.Proof.Gen.KernelIdeal.Launch
import proofs.«173171_j4063039062110_1_alg».proof.Proof.Gen.KernelIdeal.Points
import proofs.«173171_j4063039062110_1_alg».proof.Proof.Gen.KernelIdeal.Frame
import proofs.«173171_j4063039062110_1_alg».proof.Proof.Gen.ReferenceIdeal
import proofs.«173171_j4063039062110_1_alg».proof.Proof.Gen.ReferenceIdeal.Run
import proofs.«173171_j4063039062110_1_alg».proof.Proof.Gen.ReferenceIdeal.Read
import proofs.«173171_j4063039062110_1_alg».proof.Proof.Gen.Pre_finite_inputs
import proofs.«173171_j4063039062110_1_alg».proof.Proof.RefIsSpec
import proofs.«173171_j4063039062110_1_alg».proof.Proof.KernelRun
import Idealize.ShloMosaic.Adequacy
import Idealize.ShloMosaic.Init

noncomputable section

namespace Cert.Proof

open Idealize.ShloMosaic Idealize.ShloMosaic.TcCoe Idealize.SL.Sem

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the layer of those arguments in their result
    buffers: the kernel program by its run, the reference by its run read at an index; the reference's aggregated array
    of its arguments is the kernel program's of the same arguments. -/
theorem algebraic : Cert.algebraic_KernelIdeal_ReferenceIdeal := by
  intro m ρ m' ρ' _ hagree
  refine ⟨fun c => Cert.Sage.Run.result m c, Cert.Sage.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.Sage.Ref.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
